-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S100000x32 : Shape := ⟨2, ![100000, 32]⟩
abbrev S10000x128 : Shape := ⟨2, ![10000, 128]⟩
abbrev S10000x32 : Shape := ⟨2, ![10000, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩

abbrev nBuf : Space → Nat
  | .hbm => 27
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x32, .f32⟩
  | .hbm, ⟨5, _⟩ => ⟨S32, .f32⟩
  | .hbm, ⟨6, _⟩ => ⟨S100000x32, .bf16⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .bf16⟩
  | .hbm, ⟨16, _⟩ => ⟨S1600000x32, .f32⟩
  | .hbm, ⟨17, _⟩ => ⟨S1600000x1, .f32⟩
  | .hbm, ⟨18, _⟩ => ⟨S1600000x32, .f32⟩
  | .hbm, ⟨19, _⟩ => ⟨S1600000x32, .f32⟩
  | .hbm, ⟨20, _⟩ => ⟨S_, .f32⟩
  | .hbm, ⟨21, _⟩ => ⟨S100000x32, .f32⟩
  | .hbm, ⟨22, _⟩ => ⟨S1600000x1, .i32⟩
  | .hbm, ⟨23, _⟩ => ⟨S100000x32, .f32⟩
  | .hbm, ⟨24, _⟩ => ⟨S1x32, .f32⟩
  | .hbm, ⟨25, _⟩ => ⟨S100000x32, .f32⟩
  | .hbm, ⟨26, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .bf16⟩
  | .local _ .vmem, ⟨4, _⟩ => ⟨S10000x32, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S10000x128_S128x32_S10000x32_1_0_0_1_n_n_wf : DotDims.WF S10000x128 S128x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .bf16 = 32 ∨ (Rect.block (s := S100000x32) S10000x32.size (cc0_transform_2 i) (hinb0_2 i)).WholeWords (EltTy.packing .bf16)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S100000x32 : Shape := ⟨2, ![100000, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x32, .f32⟩
  | .hbm, ⟨5, _⟩ => ⟨S32, .f32⟩
  | .hbm, ⟨6, _⟩ => ⟨S100000x32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S1600000x1, .f32⟩
  | .hbm, ⟨17, _⟩ => ⟨S1600000x32, .f32⟩
  | .hbm, ⟨18, _⟩ => ⟨S1600000x32, .f32⟩
  | .hbm, ⟨19, _⟩ => ⟨S_, .f32⟩
  | .hbm, ⟨20, _⟩ => ⟨S100000x32, .f32⟩
  | .hbm, ⟨21, _⟩ => ⟨S1600000x1, .i32⟩
  | .hbm, ⟨22, _⟩ => ⟨S100000x32, .f32⟩
  | .hbm, ⟨23, _⟩ => ⟨S1x32, .f32⟩
  | .hbm, ⟨24, _⟩ => ⟨S100000x32, .f32⟩
  | .hbm, ⟨25, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.MatmulBlock.lean ====
/-
  What the kernel body stores for one block of 10000 rows, read at an index: the bf16 truncations are the identity
  on the extended reals, and the matrix unit's product into a zero accumulator is the plain sum over the
  contracted axis, so entry (r, c) of the stored block is ∑ k, xblock[r, k] · w[k, c].
-/
import proofs.«401993_j91010357002839_3_alg».proof.Proof.Gen.KernelIdeal.Skeleton
import Idealize.ShloMosaic.Lib.ValueIdx
import Idealize.ShloMosaic.PureOps.Ideal.Laws

noncomputable section

namespace Cert.KernelIdeal.MatmulBlock

open Cert.KernelIdeal Cert.KernelIdeal.Gen Idealize.ShloMosaic Idealize.ShloMosaic.TcCoe Idealize.SL.Sem

/-! The block product's operand indices, axis by axis: the left operand is read at (row of the result, k), the
    right at (k, column of the result). -/

theorem lhs_axis0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_axis1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhs_axis0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhs_axis1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Entry `j = (r, c)` of a block's product reads the feature block at `(r, k)`. -/
abbrev featBlockAt (j : S10000x32.Idx) (k : Fin 128) : S10000x128.Idx := fun a => match a with
  | ⟨0, _⟩ => ⟨(j 0).val, (j 0).isLt⟩
  | ⟨1, _⟩ => ⟨k.val, k.isLt⟩
/-- and the weight matrix at `(k, c)`. -/
abbrev weightBlockAt (j : S10000x32.Idx) (k : Fin 128) : S128x32.Idx := fun a => match a with
  | ⟨0, _⟩ => ⟨k.val, k.isLt⟩
  | ⟨1, _⟩ => ⟨(j 1).val, (j 1).isLt⟩

/-- The stored block at an index: the format changes vanish on the extended reals and the product into the zero
    accumulator is the sum over the 128 features. -/
theorem stored_apply (xb : Vec Ideal S10000x128 .f32) (wb : Vec Ideal S128x32 .f32) (j : S10000x32.Idx) :
    k0_pay1 (F := Ideal) xb wb j = ∑ k : Fin 128, xb (featBlockAt j k) * wb (weightBlockAt j k) := by
  unfold k0_pay1
  show FloatOps.matmul (φ₁ := .bf16) (φ₂ := .bf16) dot_S10000x128_S128x32_S10000x32_1_0_0_1_n_n none xb wb (constant (F := Ideal) S10000x32 .f32 0x00000000#32) j = _
  rw [Ideal.matmul_constant_zero_apply, ← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx j ((ValueIdx.contrEquiv1 dot_S10000x128_S128x32_S10000x32_1_0_0_1_n_n 128 rfl rfl).symm k) = featBlockAt j k := funext fun a => Fin.ext (by
    match a with
    | ⟨0, _⟩ => exact lhs_axis0 _ _
    | ⟨1, _⟩ => exact (lhs_axis1 _ _).trans hk)
  have er : dot_S10000x128_S128x32_S10000x32_1_0_0_1_n_n.rhsIdx j ((ValueIdx.contrEquiv1 dot_S10000x128_S128x32_S10000x32_1_0_0_1_n_n 128 rfl rfl).symm k) = weightBlockAt j k := funext fun a => Fin.ext (by
    match a with
    | ⟨0, _⟩ => exact (rhs_axis0 _ _).trans hk
    | ⟨1, _⟩ => exact rhs_axis1 _ _)
  rw [el, er]

end Cert.KernelIdeal.MatmulBlock

end
-- ==== Proof.ProductSpec.lean ====
/-
  The dense stage of the graph convolution, as ONE function of the two argument arrays: entry (r, c) of the
  node-feature matrix times the weight matrix is the sum over the 128 input features k of x[r, k] · w[k, c], on
  the extended reals. Both programs compute exactly this array (the kernel ten rows-blocks at a time, the
  reference in one contraction); everything after it is the same chain of host operations on both sides.
-/
import Idealize.ShloMosaic.PureOps.Ideal
import Idealize.ShloMosaic.Lib.ValueIdx

noncomputable section

namespace GraphConv

open Idealize.ShloMosaic

/-- Where entry `i = (r, c)` of the product reads the feature matrix for the k-th term: `(r, k)`. -/
abbrev featAt (i : (⟨2, ![100000, 32]⟩ : Shape).Idx) (k : Fin 128) : (⟨2, ![100000, 128]⟩ : Shape).Idx := fun a => match a with
  | ⟨0, _⟩ => ⟨(i 0).val, (i 0).isLt⟩
  | ⟨1, _⟩ => ⟨k.val, k.isLt⟩

/-- Where entry `i = (r, c)` of the product reads the weight matrix for the k-th term: `(k, c)`. -/
abbrev weightAt (i : (⟨2, ![100000, 32]⟩ : Shape).Idx) (k : Fin 128) : (⟨2, ![128, 32]⟩ : Shape).Idx := fun a => match a with
  | ⟨0, _⟩ => ⟨k.val, k.isLt⟩
  | ⟨1, _⟩ => ⟨(i 1).val, (i 1).isLt⟩

/-- The product x · w, entry by entry: `(x · w)[r, c] = ∑ k, x[r, k] · w[k, c]`. -/
def product (x : (⟨2, ![100000, 128]⟩ : Shape).Idx → EReal) (w : (⟨2, ![128, 32]⟩ : Shape).Idx → EReal) :
    (⟨2, ![100000, 32]⟩ : Shape).Idx → EReal :=
  fun i => ∑ k : Fin 128, x (featAt i k) * w (weightAt i k)

theorem product_apply (x : (⟨2, ![100000, 128]⟩ : Shape).Idx → EReal) (w : (⟨2, ![128, 32]⟩ : Shape).Idx → EReal)
    (i : (⟨2, ![100000, 32]⟩ : Shape).Idx) :
    product x w i = ∑ k : Fin 128, x (featAt i k) * w (weightAt i k) := rfl

end GraphConv

end
-- ==== Proof.ProductArray.lean ====
/-
  The array the pallas_call leaves: grid point t stores rows 10000·t … 10000·t + 9999 of the product x · w (its
  feature block is those rows of x, the weight block is all of w at every point), the ten blocks tile the 100000
  rows, so after the run the array is the product x · w, entry by entry.
-/
import proofs.«401993_j91010357002839_3_alg».proof.Proof.Gen.KernelIdeal.Frame
import proofs.«401993_j91010357002839_3_alg».proof.Proof.MatmulBlock
import proofs.«401993_j91010357002839_3_alg».proof.Proof.ProductSpec
import Idealize.ShloMosaic.Lib.Pipeline.Value

set_option maxRecDepth 16384

noncomputable section

namespace Cert.KernelIdeal.ProductArray

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ)

theorem offset_zero : (![0, 0] : Fin 2 → Nat) = fun _ => 0 := funext fun a => by fin_cases a <;> rfl

/-- The three index maps over the ten points: the feature window and the result window are both at block row t,
    column block 0; the weight window stays at block (0, 0). -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block row 0 … 9 of the result is some point's. -/
theorem block_row_onto : ∀ q : Fin 10, ∃ t : Fin cfg0.N, win0_2.index t = ![q.val, 0] :=
  (by decide +kernel : ∀ q : Fin 10, ∃ t : Fin grid0.N, win0_2.index t = ![q.val, 0])

/-- What point t writes back is block t of the product of the two argument arrays. -/
theorem written_block (c : Dev nD) (t : Fin cfg0.N) :
    (dats m 0 c).flushed 2 t = ((cfg0.win 2).blk t).view.read (Elt Ideal) (GraphConv.product (V m c main_arg0) (V m c main_arg4)) := by
  show (cfg0.win 2).cut (grid0.coords t) ((dats m 0 c).after 2 t) = _
  rw [after0_2]
  unfold out0_2
  rw [View.canon_unit_zero offset_zero]
  simp only [View.ld_unit_zero (S := S10000x128) offset_zero, View.ld_unit_zero (S := S128x32) offset_zero]
  obtain ⟨e0, e1, e2, e3, e4⟩ := block_indices t
  funext j
  show k0_pay1 (F := Ideal) (iblk m c 0 t) (iblk m c 1 t) j = GraphConv.product (V m c main_arg0) (V m c main_arg4) (((cfg0.win 2).blk t).view.emb j)
  refine (MatmulBlock.stored_apply (iblk m c 0 t) (iblk m c 1 t) j).trans ?_
  rw [GraphConv.product_apply]
  refine Finset.sum_congr rfl fun k _ => ?_
  have hx : iblk m c 0 t (MatmulBlock.featBlockAt j k) = V m c main_arg0 (GraphConv.featAt (((cfg0.win 2).blk t).view.emb j) k) := by
    show V m c main_arg0 (((cfg0.win 0).blk t).view.emb (MatmulBlock.featBlockAt j k)) = _
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : iblk m c 1 t (MatmulBlock.weightBlockAt j k) = V m c main_arg4 (GraphConv.weightAt (((cfg0.win 2).blk t).view.emb j) k) := by
    show V m c main_arg4 (((cfg0.win 1).blk t).view.emb (MatmulBlock.weightBlockAt j k)) = _
    refine congrArg _ (funext fun a => Fin.ext ?_)
    match a with
    | ⟨0, _⟩ => show win0_1.index t (0 : Fin 2) * 128 + 1 * k.val = k.val; omega
    | ⟨1, _⟩ => show win0_1.index t (1 : Fin 2) * 32 + 1 * (j 1).val = win0_2.index t (1 : Fin 2) * 32 + 1 * (j 1).val; omega
  rw [hx, hw]

/-- An entry of the array is in point t's block iff each coordinate is in the block's range on its axis. -/
theorem mem_block (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v0).slice (win0_2.rect t)).set ↔ _
  rw [View.set_slice_whole, Rect.mem_set_unit]
  exact Iff.rfl

/-- Row r is written by the point of block row r / 10000. -/
theorem rows_covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := block_row_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- The array after the run is the product of the feature matrix and the weight matrix as launched. -/
theorem product_array (c : Dev nD) :
    (dats m 0 c).arrAt 2 cfg0.N = GraphConv.product (m ((c : Thread nD τ).loc main_arg0)) (m ((c : Thread nD τ).loc main_arg4)) :=
  (dats m 0 c).arrAt_eq_of_cover 2 _ (fun t _ => written_block m c t) rows_covered

end Cert.KernelIdeal.ProductArray

end
-- ==== Proof.Aggregate.lean ====
/-
  The sparse stage, as ONE function of the dense stage's array `s` and the edge arrays: rows of `s` gathered by
  the column index of each edge (a negative index first wrapped by the node count), each scaled by its edge's
  value, summed into the row named by the edge's row index, and the bias added to every row. The reference's run
  is this function of the product x · w: its one contraction is the product entry by entry.
-/
import proofs.«401993_j91010357002839_3_alg».proof.Proof.Gen.ReferenceIdeal.Read
import proofs.«401993_j91010357002839_3_alg».proof.Proof.ProductSpec

noncomputable section

namespace Cert.ReferenceIdeal.Aggregate

open Cert.ReferenceIdeal Cert.ReferenceIdeal.Gen Idealize.ShloMosaic Idealize.ShloMosaic.TcCoe Idealize.SL.Sem Idealize.ShloMosaic.StableHlo

/-- Gather, scale, segment-sum and bias, of any dense array `s` of 100000 rows of 32 features. -/
def aggregate (s : (⟨S100000x32, .f32⟩ : BufTy).Contents (Elt Ideal)) (row col : (⟨S1600000, .i32⟩ : BufTy).Contents (Elt Ideal))
    (val : (⟨S1600000, .f32⟩ : BufTy).Contents (Elt Ideal)) (bias : (⟨S32, .f32⟩ : BufTy).Contents (Elt Ideal)) :
    (⟨S100000x32, .f32⟩ : BufTy).Contents (Elt Ideal) :=
  addf (Host.scatterAdd scatter_S100000x32_S1600000x1_S1600000x32_1_0_0_1 (broadcastInDim S100000x32 ![] bcast_S_S100000x32 (constant (F := Ideal) S_ .f32 0x00000000#32)) (broadcastInDim S1600000x1 ![0] bcast_S1600000_S1600000x1_0 (row)) (mulf (Host.gather gather_S100000x32_S1600000x1_S1600000x32_1_0_n_n_0_1_132 s (broadcastInDim S1600000x1 ![0] bcast_S1600000_S1600000x1_0 (select (cmpi .slt (col) (broadcastInDim S1600000 ![] bcast_S_S1600000 (constantI S_ 32 0#32))) (addi (col) (broadcastInDim S1600000 ![] bcast_S_S1600000 (constantI S_ 32 100000#32))) (col)))) (broadcastInDim S1600000x32 ![0, 1] bcast_S1600000x1_S1600000x32_0_1 (broadcastInDim S1600000x1 ![0] bcast_S1600000_S1600000x1_0 (val))))) (broadcastInDim S100000x32 ![0, 1] bcast_S1x32_S100000x32_0_1 (broadcastInDim S1x32 ![1] bcast_S32_S1x32_1 (bias)))

/-- The reference's contraction of the feature axis is the product, entry by entry. -/
theorem contraction_eq_product (x : (⟨S100000x128, .f32⟩ : BufTy).Contents (Elt Ideal)) (w : (⟨S128x32, .f32⟩ : BufTy).Contents (Elt Ideal)) :
    Host.dotGeneral (F := Ideal) (φ₁ := .f32) (φ₂ := .f32) dot_S100000x128_S128x32_S100000x32_1_0_0_1_n_n none x w = GraphConv.product x w := by
  funext i
  exact Read.val_main_v0_apply x w i

/-- The term the reference's run ends at is the aggregation of the product. -/
theorem reference_value (x : (⟨S100000x128, .f32⟩ : BufTy).Contents (Elt Ideal)) (row col : (⟨S1600000, .i32⟩ : BufTy).Contents (Elt Ideal))
    (val : (⟨S1600000, .f32⟩ : BufTy).Contents (Elt Ideal)) (w : (⟨S128x32, .f32⟩ : BufTy).Contents (Elt Ideal)) (bias : (⟨S32, .f32⟩ : BufTy).Contents (Elt Ideal)) :
    aggregate (Host.dotGeneral (F := Ideal) (φ₁ := .f32) (φ₂ := .f32) dot_S100000x128_S128x32_S100000x32_1_0_0_1_n_n none x w) row col val bias
      = aggregate (GraphConv.product x w) row col val bias := by
  rw [contraction_eq_product]

end Cert.ReferenceIdeal.Aggregate

end
-- ==== Proof.KernelValue.lean ====
/-
  The kernel's program, read as a value: the host operations after the pallas_call are the aggregation (gather by
  column index, scale by the edge value, sum into rows, add the bias) of whatever array the call left — the
  widening of the gathered bf16 rows to f32 is the identity on the extended reals —, and the call left the product
  x · w. So the program's result is the aggregation of the product, and its arguments end as launched.
-/
import proofs.«401993_j91010357002839_3_alg».proof.Proof.ProductArray
import proofs.«401993_j91010357002839_3_alg».proof.Proof.Aggregate
import Idealize.ShloMosaic.Lib.StableHlo.Run

noncomputable section

namespace Cert.KernelIdeal.KernelValue

open Cert.KernelIdeal Cert.KernelIdeal.Gen Idealize.ShloMosaic Idealize.ShloMosaic.TcCoe Idealize.SL.Sem Idealize.ShloMosaic.StableHlo
open Cert.ReferenceIdeal.Aggregate (aggregate)

/-- Over ANY contents `W` of the buffers, the twenty host operations after the call leave, in the result buffer,
    the aggregation of what `W` holds in the call's output array and in the four edge / bias arguments. -/
theorem tail_value (W : Valuation τ sig (Elt Ideal)) :
    StableHlo.after (List.flatten [(hostOps1 : List (HloOp τ sig (Elt Ideal)))]) W (Proc.devRef .tc main_v17)
      = aggregate (W (Proc.devRef .tc main_v0)) (W (Proc.devRef .tc main_arg1)) (W (Proc.devRef .tc main_arg2))
          (W (Proc.devRef .tc main_arg3)) (W (Proc.devRef .tc main_arg5)) := by
  simp only [hostOps1, List.flatten_cons, List.flatten_nil, List.append_nil, List.cons_append, List.nil_append]
  after_results
  rfl

/-- The aggregation respects equality of each of its five arguments. -/
theorem aggregate_congr {s s' : (⟨Cert.ReferenceIdeal.S100000x32, .f32⟩ : BufTy).Contents (Elt Ideal)}
    {row row' col col' : (⟨Cert.ReferenceIdeal.S1600000, .i32⟩ : BufTy).Contents (Elt Ideal)}
    {val val' : (⟨Cert.ReferenceIdeal.S1600000, .f32⟩ : BufTy).Contents (Elt Ideal)}
    {bias bias' : (⟨Cert.ReferenceIdeal.S32, .f32⟩ : BufTy).Contents (Elt Ideal)}
    (hs : s = s') (hr : row = row') (hc : col = col') (hv : val = val') (hb : bias = bias') :
    aggregate s row col val bias = aggregate s' row' col' val' bias' := by
  subst hs hr hc hv hb; rfl

variable (m : (ℓ : Loc nD τ sig) → Buf (Elt Ideal) ℓ) (ρ : Dev nD → PrngReg)

/-- What the program's result buffer holds after the run: the aggregation of the product of the feature and
    weight matrices as launched, over the edge arrays and the bias as launched. -/
theorem result_value (c : Dev nD) :
    Pipeline.afterTail₀ cfgs (dats m) 0 (V0 m) [hostOps1] c main_v17
      = aggregate (GraphConv.product (m ((c : Thread nD τ).loc main_arg0)) (m ((c : Thread nD τ).loc main_arg4)))
          (m ((c : Thread nD τ).loc main_arg1)) (m ((c : Thread nD τ).loc main_arg2))
          (m ((c : Thread nD τ).loc main_arg3)) (m ((c : Thread nD τ).loc main_arg5)) := by
  unfold Pipeline.afterTail₀
  refine (tail_value _).trans ?_
  exact aggregate_congr
    ((Pipeline.withArrays_arr spec0 launch0.win.arr_inj c (V0 m c) _ 2).trans (ProductArray.product_array m c))
    ((Pipeline.withArrays_of_ne _ c (V0 m c) _ main_arg1 (by exact (by decide : ∀ w, Pipeline.arrRef spec0 w ≠ main_arg1))).trans (V_main_arg1 m c))
    ((Pipeline.withArrays_of_ne _ c (V0 m c) _ main_arg2 (by exact (by decide : ∀ w, Pipeline.arrRef spec0 w ≠ main_arg2))).trans (V_main_arg2 m c))
    ((Pipeline.withArrays_of_ne _ c (V0 m c) _ main_arg3 (by exact (by decide : ∀ w, Pipeline.arrRef spec0 w ≠ main_arg3))).trans (V_main_arg3 m c))
    ((Pipeline.withArrays_of_ne _ c (V0 m c) _ main_arg5 (by exact (by decide : ∀ w, Pipeline.arrRef spec0 w ≠ main_arg5))).trans (V_main_arg5 m c))

/-- The kernel's run with its result named: every weakly fair execution terminates, the result buffer at the
    aggregation of the product, the six arguments unchanged. -/
theorem run : θ_run defs (onTc (τ := τ) (main (F := Ideal))) ⟨m, fun _ => 0, ρ⟩ fun r => ∀ c : Dev nD,
      r.2.mem ((c.tc : Thread nD τ).loc main_v17)
        = aggregate (GraphConv.product (m ((c : Thread nD τ).loc main_arg0)) (m ((c : Thread nD τ).loc main_arg4)))
            (m ((c : Thread nD τ).loc main_arg1)) (m ((c : Thread nD τ).loc main_arg2))
            (m ((c : Thread nD τ).loc main_arg3)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v17 (Pipeline.mem_restRefs_of main_v17 (by decide) (by decide))).trans (result_value m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c))⟩)
    (run_main m ρ)

end Cert.KernelIdeal.KernelValue

end
-- ==== Proof.lean ====
/-
  A graph convolution: output = segment_sum(support[edge_col] · edge_val, edge_row) + bias with support = x · w.

  The kernel computes support in a pallas_call, ten blocks of 10000 rows, each block the matrix unit's product of
  the block's rows (truncated to bf16) with the weights (truncated to bf16) into a zero accumulator, stored as bf16;
  the reference computes it as one contraction in f32. On the extended reals a change of float format is the identity
  and both products are the plain sum ∑ k, x[r, k] · w[k, c] over the 128 input features, so both programs hold the
  same array `GraphConv.product x w` at that point. From there both apply the same host operations — wrap a negative
  column index by the node count, gather rows, scale each by its edge's value, add into the row the edge names, add
  the bias — which is carried as ONE function `aggregate` of the dense array and never opened. No law that needs
  finiteness is used: the only rearrangement is reading each product as its sum, so the precondition is never opened.

  The kernel's idealization rewrote nothing, so it is the kernel's own text read on the extended reals.
-/
import proofs.«401993_j91010357002839_3_alg».proof.Defs
import proofs.«401993_j91010357002839_3_alg».proof.Proof.Gen.Kernel
import proofs.«401993_j91010357002839_3_alg».proof.Proof.Gen.Kernel.Skeleton
import proofs.«401993_j91010357002839_3_alg».proof.Proof.Gen.Kernel.Launch
import proofs.«401993_j91010357002839_3_alg».proof.Proof.Gen.Kernel.Points
import proofs.«401993_j91010357002839_3_alg».proof.Proof.Gen.Kernel.Frame
import proofs.«401993_j91010357002839_3_alg».proof.Proof.Gen.KernelIdeal
import proofs.«401993_j91010357002839_3_alg».proof.Proof.Gen.KernelIdeal.Skeleton
import proofs.«401993_j91010357002839_3_alg».proof.Proof.Gen.KernelIdeal.Launch
import proofs.«401993_j91010357002839_3_alg».proof.Proof.Gen.KernelIdeal.Points
import proofs.«401993_j91010357002839_3_alg».proof.Proof.Gen.KernelIdeal.Frame
import proofs.«401993_j91010357002839_3_alg».proof.Proof.Gen.ReferenceIdeal
import proofs.«401993_j91010357002839_3_alg».proof.Proof.Gen.Pre_finite_inputs
import proofs.«401993_j91010357002839_3_alg».proof.Proof.Gen.ReferenceIdeal.Run
import proofs.«401993_j91010357002839_3_alg».proof.Proof.Gen.ReferenceIdeal.Read
import proofs.«401993_j91010357002839_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten by the idealization: nothing to preserve. -/
theorem preserves : Cert.preserves_Kernel_KernelIdeal := trivial

/-- From memories agreeing on the six arguments both programs end at the aggregation of the product x · w: the
    kernel by its blocks of the product, the reference by its one contraction read as the product. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.Aggregate.reference_value _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
